-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg2 : IVec S2x800000 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : IVec S1x800000 32 := (extractStridedSlice S1x800000 ![0, 0] · slices_S2x800000_S1x800000_0_0) main_arg2
  let main_v40 : IVec S800000 32 := shapeCast S800000 main_v39 shapeCasts_S1x800000_S800000
  let main_c_14 : IVec S_ 32 := constantI S_ 32 0#32
  let main_v41 : IVec S800000 32 := broadcastInDim S800000 ![] bcast_S_S800000 main_c_14
  let main_v42 : IVec S800000 1 := cmpi .sge main_v40 main_v41
  let main_c_15 : IVec S_ 1 := constantI S_ 1 1#1
  let main_v43 : IVec S_ 1 := (fun x v => Host.reduce IntOp.andi x v reducesTo_S800000_S_d0 h_S_) main_v42 main_c_15
  let main_v44 : IVec S_ 1 := andi main_v38 main_v43
  main_v44

def fn_part1 {F : FTy → Type} [FloatOps F] (main_arg2 : IVec S2x800000 32) (main_arg5 : FVec F S128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_v33

def fn {F : FTy → Type} [FloatOps F] (main_arg0 : FVec F S50000x64 .f32) (main_arg1 : FVec F S800000x64 .f32) (main_arg2 : IVec S2x800000 32) (main_arg3 : FVec F S128x128 .f32) (main_arg4 : FVec F S128 .f32) (main_arg5 : FVec F S128 .f32) (main_arg6 : FVec F S128 .f32) (main_arg7 : FVec F S128x128 .f32) (main_arg8 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_v13 main_v16
-- ==== Kernel.lean ====
abbrev S50000x64 : Shape := ⟨2, ![50000, 64]⟩
abbrev S800000x64 : Shape := ⟨2, ![800000, 64]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S800000x1 : Shape := ⟨2, ![800000, 1]⟩
abbrev S64x128 : Shape := ⟨2, ![64, 128]⟩
abbrev S1x128 : Shape := ⟨2, ![1, 128]⟩
abbrev S800000x128 : Shape := ⟨2, ![800000, 128]⟩
abbrev S10000x64 : Shape := ⟨2, ![10000, 64]⟩
abbrev S10000x128 : Shape := ⟨2, ![10000, 128]⟩
abbrev S10000 : Shape := ⟨1, ![10000]⟩
abbrev S10000x1 : Shape := ⟨2, ![10000, 1]⟩
abbrev S_ : Shape := ⟨0, ![]⟩
abbrev S50000x128 : Shape := ⟨2, ![50000, 128]⟩
abbrev S50000 : Shape := ⟨1, ![50000]⟩
abbrev S50000x1 : Shape := ⟨2, ![50000, 1]⟩

abbrev nBuf : Space → Nat
  | .hbm => 40
  | .vmem => 13
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x64, .bf16⟩
  | .hbm, ⟨14, _⟩ => ⟨S800000x1, .i32⟩
  | .hbm, ⟨15, _⟩ => ⟨S800000x64, .bf16⟩
  | .hbm, ⟨16, _⟩ => ⟨S64x128, .f32⟩
  | .hbm, ⟨17, _⟩ => ⟨S64x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S800000x128, .bf16⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .local _ .vmem, ⟨0, _⟩ => ⟨S10000x64, .bf16⟩
  | .local _ .vmem, ⟨1, _⟩ => ⟨S10000x64, .bf16⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S10000x128, .bf16⟩
  | .local _ .vmem, ⟨12, _⟩ => ⟨S10000x128, .bf16⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S800000_S800000x1_0 : S800000.BroadcastsInDim S800000x1 (![0] : Fin 1 → Fin S800000x1.rank)
  slices_S128x128_S64x128_0_0 : S128x128.Slices ![0, 0] S64x128
  slices_S128x128_S64x128_64_0 : S128x128.Slices ![64, 0] S64x128
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S_S50000x128 : S_.BroadcastsInDim S50000x128 (![] : Fin 0 → Fin S50000x128.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x64_S800000x1_S800000x64_1_0_n_n_0_1_164_wf : GatherDims.WF S50000x64 S800000x1 S800000x64 [1] [0] [] [0] [] 1 ![1, 64]
  dot_S10000x64_S64x128_S10000x128_1_0_0_1_n_n_wf : DotDims.WF S10000x64 S64x128 S10000x128 [1] [0] [0] [1] [] []
  dot_S10000x128_S128x128_S10000x128_1_0_0_1_n_n_wf : DotDims.WF S10000x128 S128x128 S10000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .bf16 = 32 ∨ (Rect.block (s := S800000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S800000x64.size a
  hwx0_1 : ∀ i : grid0.Coords, EltTy.bits .f32 = 32 ∨ (Rect.block (s := S800000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x128.size a ≤ S800000x128.size a
  hwx0_9 : ∀ i : grid0.Coords, EltTy.bits .bf16 = 32 ∨ (Rect.block (s := S800000x128) S10000x128.size (cc0_transform_9 i) (hinb0_9 i)).WholeWords (EltTy.packing .bf16)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v5) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S10000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x128 : Shape := ⟨2, ![50000, 128]⟩
abbrev S50000 : Shape := ⟨1, ![50000]⟩
abbrev S50000x1 : Shape := ⟨2, ![50000, 1]⟩

abbrev nBuf : Space → Nat
  | .hbm => 79
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x128, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S800000, .f32⟩
  | .hbm, ⟨29, _⟩ => ⟨S800000x1, .f32⟩
  | .hbm, ⟨30, _⟩ => ⟨S_, .f32⟩
  | .hbm, ⟨31, _⟩ => ⟨S800000x1, .f32⟩
  | .hbm, ⟨32, _⟩ => ⟨S800000x1, .f32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S800000, .f32⟩
  | .hbm, ⟨38, _⟩ => ⟨S800000x1, .f32⟩
  | .hbm, ⟨39, _⟩ => ⟨S_, .f32⟩
  | .hbm, ⟨40, _⟩ => ⟨S800000x1, .f32⟩
  | .hbm, ⟨41, _⟩ => ⟨S800000x1, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S800000x1, .f32⟩
  | .hbm, ⟨46, _⟩ => ⟨S800000x1, .f32⟩
  | .hbm, ⟨47, _⟩ => ⟨S800000x1, .f32⟩
  | .hbm, ⟨48, _⟩ => ⟨S800000x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S1x128, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S800000x128, .f32⟩
  | .hbm, ⟨58, _⟩ => ⟨S800000x128, .f32⟩
  | .hbm, ⟨59, _⟩ => ⟨S800000x128, .f32⟩
  | .hbm, ⟨60, _⟩ => ⟨S1x128, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S_, .f32⟩
  | .hbm, ⟨68, _⟩ => ⟨S800000, .f32⟩
  | .hbm, ⟨69, _⟩ => ⟨S_, .f32⟩
  | .hbm, ⟨70, _⟩ => ⟨S50000, .f32⟩
  | .hbm, ⟨71, _⟩ => ⟨S800000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S800000_d1 : S800000x128.ReducesTo [1] S800000
  h_S_ : 0 < S_.numel
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.EdgeRow.lean ====
/-
  One edge of the message-passing layer, as mathematics on rows of extended reals.

  An edge carries a source-node row `xr` (64 entries) and an edge-feature row `ea` (64 entries). The layer is
    h   = [xr, ea] · W1 + b1                      (128 entries)
    mu  = (Σ h) / 128,   d = h − mu,   var = (Σ d²) / 128
    n   = d · rsqrt(var + eps) · g + bt
    out = max(n, 0) · W2 + b2                     (128 entries)
  The only law used between the two programs is that a contraction over the joined row of length 128 is the sum
  of the contractions over its two halves of length 64 (`joined_eq_halves`): a regrouping of one finite sum,
  which holds in the extended reals without any finiteness.
-/
import Idealize.ShloMosaic.PureOps.Ideal
import Mathlib.Algebra.BigOperators.Fin

noncomputable section

namespace Cert.EdgeRow

open Idealize.ShloMosaic

/-- The row width 128 as the f32 both programs divide by. -/
def width : EReal := Ideal.ofBits .f32 0x43000000#32
/-- The layer norm's epsilon, the f32 nearest 1e-5, in both programs. -/
def eps : EReal := Ideal.ofBits .f32 0x3727C5AC#32
/-- The f32 zero the ReLU compares with. -/
def zero : EReal := Ideal.ofBits .f32 0x00000000#32

/-- The first linear layer with the contraction in two halves: source-node row against the upper 64 rows of the
    weight, edge-feature row against the lower 64. -/
def hidden (xr ea : Fin 64 → EReal) (Wa Wb : Fin 64 → Fin 128 → EReal) (b : Fin 128 → EReal) (j : Fin 128) : EReal :=
  (∑ k : Fin 64, xr k * Wa k j) + (∑ k : Fin 64, ea k * Wb k j) + b j

/-- The first linear layer over the joined row: one contraction of length 128. -/
def hiddenJoined (z : Fin 128 → EReal) (W : Fin 128 → Fin 128 → EReal) (b : Fin 128 → EReal) (j : Fin 128) : EReal :=
  (∑ k : Fin 128, z k * W k j) + b j

/-- A contraction over 128 = 64 + 64 positions is the sum of the contractions over the first 64 and the last 64. -/
theorem joined_eq_halves (z : Fin 128 → EReal) (W : Fin 128 → Fin 128 → EReal) (b : Fin 128 → EReal) (j : Fin 128) :
    hiddenJoined z W b j
      = hidden (fun k => z (Fin.castAdd 64 k)) (fun k => z (Fin.natAdd 64 k))
          (fun k => W (Fin.castAdd 64 k)) (fun k => W (Fin.natAdd 64 k)) b j := by
  unfold hiddenJoined hidden
  exact congrArg (· + b j) (Fin.sum_univ_add (a := 64) (b := 64) (fun k : Fin (64 + 64) => z k * W k j))

/-- The mean of a row. -/
def mean (h : Fin 128 → EReal) : EReal := Ideal.div (∑ k : Fin 128, h k) width
/-- A row with its mean taken off. -/
def centred (h : Fin 128 → EReal) (j : Fin 128) : EReal := h j - mean h
/-- The mean of the squares of the centred row. -/
def variance (h : Fin 128 → EReal) : EReal := Ideal.div (∑ k : Fin 128, centred h k * centred h k) width
/-- Layer norm with gain `g` and bias `bt`. -/
def normed (h g bt : Fin 128 → EReal) (j : Fin 128) : EReal :=
  centred h j * Ideal.rsqrt (variance h + eps) * g j + bt j
/-- ReLU of the normed row, then the second linear layer. -/
def out (h g bt : Fin 128 → EReal) (W2 : Fin 128 → Fin 128 → EReal) (b2 : Fin 128 → EReal) (j : Fin 128) : EReal :=
  (∑ k : Fin 128, max (normed h g bt k) zero * W2 k j) + b2 j

end Cert.EdgeRow

end
-- ==== Proof.KernelRow.lean ====
/-
  The kernel body's arithmetic read at an index, at the exact-real instance.

  The body works on a block of 10000 edges. Its value before the store is the composition of
    pre    : the first linear layer, as two contractions of length 64 plus the bias row,
    meanCol, cen, varCol : the row mean as a column, the centred block, the row variance as a column,
    nrm    : the centred block times rsqrt(variance + eps) times the gain row,
  and then (the second payload) bias, ReLU, the second linear layer. Read at row p and column j every stage
  depends on row p of the block only, and is the row mathematics of `Cert.EdgeRow` there.
-/
import proofs.«429996_j37177236914589_3_alg».proof.Proof.Gen.KernelIdeal.Skeleton
import proofs.«429996_j37177236914589_3_alg».proof.Proof.EdgeRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelRow

open Cert.KernelIdeal Cert.KernelIdeal.Gen Idealize.ShloMosaic Idealize.ShloMosaic.ValueIdx

/-! ## Layout operations of the body read at an index -/

/-- A vector of length `a` kept as an `[a, 1]` column reads, at row `p`, the vector at `p`. -/
theorem cast_col {α : Type} {a : ℕ} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_two, Shape.rowMajor_val_one]
    show p.val = p.val * 1 + 0
    omega)

/-- An `[a, 1]` column broadcast along the second axis reads, at `(p, c)`, the column at row `p`. -/
theorem bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the second axis of a `[10000, 128]` block reads, at row `p`, the sum of that row. -/
theorem row_sum (v : FVec Ideal S10000x128 .f32) (hφ : FKind.Formats .f32) (hacc : (0x00000000#32 : BitVec 32) = 0x00000000#32) (p : Fin 10000) :
    multiReduction .add [1] S10000 v 0x00000000#32 reduces_S10000x128_S10000 hφ hacc (ix1 p) = ∑ k : Fin 128, v (ix2 p k) :=
  (Ideal.multiReduction_add_single v 0x00000000#32 reduces_S10000x128_S10000 hφ hacc (ix1 p)).trans
    (Finset.sum_congr rfl fun k _ => congrArg v (funext fun c => Fin.ext (by
      match c with
      | ⟨0, _⟩ => rfl
      | ⟨1, _⟩ => rfl)))

/-! ## The two matrix products -/

theorem lhsA_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhsA_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem rhsA_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem rhsA_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The product of a `[10000, 64]` block with a `[64, 128]` matrix into a zero accumulator reads, at `(p, j)`, the
    contraction of row `p` with column `j`. -/
theorem mmA {φ₁ φ₂ : FTy} (l : FVec Ideal S10000x64 φ₁) (r : FVec Ideal S64x128 φ₂) (p : Fin 10000) (j : Fin 128) :
    matmul dot_S10000x64_S64x128_S10000x128_1_0_0_1_n_n none l r (constant (F := Ideal) S10000x128 .f32 0x00000000#32) (ix2 p j)
      = ∑ k : Fin 64, l (ix2 p k) * r (ix2 k j) := by
  refine (Ideal.matmul_constant_zero_apply dot_S10000x64_S64x128_S10000x128_1_0_0_1_n_n none l r (ix2 p j)).trans ?_
  rw [← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ix2 p j) ((ValueIdx.contrEquiv1 dot_S10000x64_S64x128_S10000x128_1_0_0_1_n_n 64 rfl rfl).symm k) = ix2 p k := funext fun a => Fin.ext (by
    match a with
    | ⟨0, _⟩ => exact lhsA_0 _ _
    | ⟨1, _⟩ => exact (lhsA_1 _ _).trans hk)
  have er : dot_S10000x64_S64x128_S10000x128_1_0_0_1_n_n.rhsIdx (ix2 p j) ((ValueIdx.contrEquiv1 dot_S10000x64_S64x128_S10000x128_1_0_0_1_n_n 64 rfl rfl).symm k) = ix2 k j := funext fun a => Fin.ext (by
    match a with
    | ⟨0, _⟩ => exact (rhsA_0 _ _).trans hk
    | ⟨1, _⟩ => exact rhsA_1 _ _)
  rw [el, er]

theorem lhsB_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsB_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsB_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsB_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of a `[10000, 128]` block with a `[128, 128]` matrix into a zero accumulator reads, at `(p, j)`, the
    contraction of row `p` with column `j`. -/
theorem mmB {φ₁ φ₂ : FTy} (l : FVec Ideal S10000x128 φ₁) (r : FVec Ideal S128x128 φ₂) (p : Fin 10000) (j : Fin 128) :
    matmul dot_S10000x128_S128x128_S10000x128_1_0_0_1_n_n none l r (constant (F := Ideal) S10000x128 .f32 0x00000000#32) (ix2 p j)
      = ∑ k : Fin 128, l (ix2 p k) * r (ix2 k j) := by
  refine (Ideal.matmul_constant_zero_apply dot_S10000x128_S128x128_S10000x128_1_0_0_1_n_n none l r (ix2 p j)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p j) ((ValueIdx.contrEquiv1 dot_S10000x128_S128x128_S10000x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S10000x128_S128x128_S10000x128_1_0_0_1_n_n.rhsIdx (ix2 p j) ((ValueIdx.contrEquiv1 dot_S10000x128_S128x128_S10000x128_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-! ## The body's stages, named -/

/-- The first linear layer on a block: source rows against the upper weight half, edge rows against the lower, plus
    the bias row. -/
def pre (x0 : FVec Ideal S10000x64 .bf16) (x1 : FVec Ideal S10000x64 .f32) (x2 x3 : FVec Ideal S64x128 .f32) (x4 : FVec Ideal S1x128 .f32) :
    FVec Ideal S10000x128 .f32 :=
  addf (addf
      (matmul dot_S10000x64_S64x128_S10000x128_1_0_0_1_n_n none (shapeCast S10000x64 x0 shapeCasts_S10000x64_S10000x64)
        (truncf .bf16 (shapeCast S64x128 x2 shapeCasts_S64x128_S64x128) bitsLt_bf16_f32) (constant (F := Ideal) S10000x128 .f32 0x00000000#32))
      (matmul dot_S10000x64_S64x128_S10000x128_1_0_0_1_n_n none (truncf .bf16 x1 bitsLt_bf16_f32)
        (truncf .bf16 (shapeCast S64x128 x3 shapeCasts_S64x128_S64x128) bitsLt_bf16_f32) (constant (F := Ideal) S10000x128 .f32 0x00000000#32)))
    (broadcastTo S10000x128 (shapeCast S1x128 x4 shapeCasts_S1x128_S1x128) broadcasts_S1x128_S10000x128)

/-- The row means as a column. -/
def meanCol (h : FVec Ideal S10000x128 .f32) : FVec Ideal S10000x1 .f32 :=
  divf (shapeCast S10000x1 (multiReduction .add [1] S10000 h 0x00000000#32 reduces_S10000x128_S10000 (.inl rfl) rfl) shapeCasts_S10000_S10000x1)
    (broadcast S10000x1 (Scalar.ofBits (F := Ideal) .f32 0x43000000#32))

/-- The block with each row's mean taken off. -/
def cen (h : FVec Ideal S10000x128 .f32) : FVec Ideal S10000x128 .f32 :=
  subf h (broadcastTo S10000x128 (meanCol h) broadcasts_S10000x1_S10000x128)

/-- The row variances as a column. -/
def varCol (h : FVec Ideal S10000x128 .f32) : FVec Ideal S10000x1 .f32 :=
  divf (shapeCast S10000x1 (multiReduction .add [1] S10000 (mulf (cen h) (cen h)) 0x00000000#32 reduces_S10000x128_S10000 (.inl rfl) rfl) shapeCasts_S10000_S10000x1)
    (broadcast S10000x1 (Scalar.ofBits (F := Ideal) .f32 0x43000000#32))

/-- The centred block times rsqrt(variance + eps), times the gain row. -/
def nrm (h : FVec Ideal S10000x128 .f32) (x5 : FVec Ideal S1x128 .f32) : FVec Ideal S10000x128 .f32 :=
  mulf (mulf (cen h)
      (broadcastTo S10000x128 (rsqrt (addf (varCol h) (broadcast S10000x1 (Scalar.ofBits (F := Ideal) .f32 0x3727C5AC#32)))) broadcasts_S10000x1_S10000x128))
    (broadcastTo S10000x128 (shapeCast S1x128 x5 shapeCasts_S1x128_S1x128) broadcasts_S1x128_S10000x128)

/-- The first payload is the composition of the named stages. -/
theorem pay2_eq (x0 : FVec Ideal S10000x64 .bf16) (x1 : FVec Ideal S10000x64 .f32) (x2 x3 : FVec Ideal S64x128 .f32) (x4 x5 : FVec Ideal S1x128 .f32) :
    k0_pay2 (F := Ideal) x0 x1 x2 x3 x4 x5 = nrm (pre x0 x1 x2 x3 x4) x5 := rfl

/-! ## The stages read at row `p` -/

section Rows

variable (x0 : FVec Ideal S10000x64 .bf16) (x1 : FVec Ideal S10000x64 .f32) (x2 x3 : FVec Ideal S64x128 .f32)
  (x4 x5 x6 : FVec Ideal S1x128 .f32) (x7 : FVec Ideal S128x128 .f32) (x8 : FVec Ideal S1x128 .f32)
  (h : FVec Ideal S10000x128 .f32) (p : Fin 10000)

/-- Row `p` of the first linear layer is `EdgeRow.hidden` of row `p` of the two input blocks. -/
theorem pre_apply (j : Fin 128) :
    pre x0 x1 x2 x3 x4 (ix2 p j)
      = Cert.EdgeRow.hidden (fun k => x0 (ix2 p k)) (fun k => x1 (ix2 p k)) (fun k j' => x2 (ix2 k j')) (fun k j' => x3 (ix2 k j'))
          (fun j' => x4 (ix2 (0 : Fin 1) j')) j := by
  unfold pre Cert.EdgeRow.hidden
  rw [addf_apply, addf_apply, mmA, mmA, broadcastTo_1b_ab_apply]
  simp only [shapeCast_self]
  rfl

/-- The mean column at row `p` is the mean of row `p`. -/
theorem meanCol_apply : meanCol h (ix2 p (0 : Fin 1)) = Cert.EdgeRow.mean (fun k => h (ix2 p k)) := by
  unfold meanCol Cert.EdgeRow.mean Cert.EdgeRow.width
  refine (divf_apply _ _ _).trans (congrArg₂ Ideal.div ?_ rfl)
  exact (cast_col _ _ p).trans (row_sum h _ _ p)

/-- The centred block at `(p, j)`. -/
theorem cen_apply (j : Fin 128) : cen h (ix2 p j) = Cert.EdgeRow.centred (fun k => h (ix2 p k)) j := by
  unfold cen Cert.EdgeRow.centred
  rw [subf_apply, bcast_col, meanCol_apply]

/-- The variance column at row `p` is the variance of row `p`. -/
theorem varCol_apply : varCol h (ix2 p (0 : Fin 1)) = Cert.EdgeRow.variance (fun k => h (ix2 p k)) := by
  unfold varCol Cert.EdgeRow.variance Cert.EdgeRow.width
  refine (divf_apply _ _ _).trans (congrArg₂ Ideal.div ?_ rfl)
  refine (cast_col _ _ p).trans ((row_sum _ _ _ p).trans (Finset.sum_congr rfl fun k _ => ?_))
  rw [mulf_apply, cen_apply]

/-- The normed block (before its bias) at `(p, j)`. -/
theorem nrm_apply (j : Fin 128) :
    nrm h x5 (ix2 p j)
      = Cert.EdgeRow.centred (fun k => h (ix2 p k)) j * Ideal.rsqrt (Cert.EdgeRow.variance (fun k => h (ix2 p k)) + Cert.EdgeRow.eps)
          * x5 (ix2 (0 : Fin 1) j) := by
  unfold nrm
  rw [mulf_apply, mulf_apply, cen_apply, bcast_col, broadcastTo_1b_ab_apply, shapeCast_self]
  refine congrArg (fun r => Cert.EdgeRow.centred (fun k => h (ix2 p k)) j * r * x5 (ix2 (0 : Fin 1) j)) ?_
  show Ideal.rsqrt (varCol h (ix2 p (0 : Fin 1)) + Ideal.ofBits .f32 0x3727C5AC#32) = _
  rw [varCol_apply]
  rfl

/-- The second payload at `(p, j)`: bias, ReLU, the second linear layer. -/
theorem pay1_apply (v36 : FVec Ideal S10000x128 .f32) (j : Fin 128) :
    k0_pay1 (F := Ideal) v36 x6 x7 x8 (ix2 p j)
      = (∑ k : Fin 128, max (v36 (ix2 p k) + x6 (ix2 (0 : Fin 1) k)) Cert.EdgeRow.zero * x7 (ix2 k j)) + x8 (ix2 (0 : Fin 1) j) := by
  unfold k0_pay1
  show (addf (matmul dot_S10000x128_S128x128_S10000x128_1_0_0_1_n_n none _ _ (constant (F := Ideal) S10000x128 .f32 0x00000000#32)) _) (ix2 p j) = _
  rw [addf_apply, mmB, broadcastTo_1b_ab_apply]
  simp only [shapeCast_self]
  refine congrArg (· + x8 (ix2 (0 : Fin 1) j)) (Finset.sum_congr rfl fun k _ => ?_)
  rw [truncf_apply, truncf_apply, maximumf_apply, addf_apply, broadcastTo_1b_ab_apply]
  rfl

/-- THE BODY at `(p, j)`: what the block's store holds there is `EdgeRow.out` of row `p` of the input blocks. -/
theorem body_apply (j : Fin 128) :
    k0_pay1 (F := Ideal) (k0_pay2 (F := Ideal) x0 x1 x2 x3 x4 x5) x6 x7 x8 (ix2 p j)
      = Cert.EdgeRow.out
          (Cert.EdgeRow.hidden (fun k => x0 (ix2 p k)) (fun k => x1 (ix2 p k)) (fun k j' => x2 (ix2 k j')) (fun k j' => x3 (ix2 k j'))
            (fun j' => x4 (ix2 (0 : Fin 1) j')))
          (fun j' => x5 (ix2 (0 : Fin 1) j')) (fun j' => x6 (ix2 (0 : Fin 1) j')) (fun k j' => x7 (ix2 k j')) (fun j' => x8 (ix2 (0 : Fin 1) j')) j := by
  rw [pay1_apply, pay2_eq]
  unfold Cert.EdgeRow.out Cert.EdgeRow.normed
  have hrow : (fun k => pre x0 x1 x2 x3 x4 (ix2 p k))
      = Cert.EdgeRow.hidden (fun k => x0 (ix2 p k)) (fun k => x1 (ix2 p k)) (fun k j' => x2 (ix2 k j')) (fun k j' => x3 (ix2 k j'))
          (fun j' => x4 (ix2 (0 : Fin 1) j')) := funext fun k => pre_apply x0 x1 x2 x3 x4 p k
  refine congrArg (· + x8 (ix2 (0 : Fin 1) j)) (Finset.sum_congr rfl fun k _ => ?_)
  rw [nrm_apply, hrow]

end Rows

end Cert.KernelRow

end
-- ==== Proof.KernelEntry.lean ====
/-
  What the kernel's region finds in the arrays its windows read, as functions of the program's arguments.

  Before the region the program gathers rows of the node table (cast to the narrow format, the identity on exact
  reals) at the first row of the edge index, cuts the first weight into its upper and lower 64 rows, and reshapes
  the four parameter vectors into 1 x 128 rows. Read at an index: the upper cut at (k, j) is the weight at (k, j),
  the lower cut at (k, j) the weight at (64 + k, j), a reshaped row at (0, j) the vector at j.
-/
import proofs.«429996_j37177236914589_3_alg».proof.Proof.Gen.KernelIdeal.Frame
import Idealize.ShloMosaic.Lib.StableHlo.Run
import Idealize.ShloMosaic.Lib.ValueIdx
import Idealize.ShloMosaic.Lib.ValueLayout
import Idealize.ShloMosaic.PureOps.Ideal

noncomputable section

namespace Cert.KernelEntry

open Cert.KernelIdeal Cert.KernelIdeal.Gen Idealize.ShloMosaic Idealize.ShloMosaic.TcCoe Idealize.SL.Sem Idealize.ShloMosaic.StableHlo
  Idealize.ShloMosaic.ValueIdx

/-- The gathered source-node table: row `e` is the node table's row at the first row of the edge index at `e`
    (an out-of-range index is clamped into range by the gather). -/
def gathered (x0 : FVec Ideal S50000x64 .f32) (x2 : IVec S2x800000 32) : FVec Ideal S800000x64 .bf16 :=
  Host.gather gather_S50000x64_S800000x1_S800000x64_1_0_n_n_0_1_164 (truncf .bf16 x0 bitsLt_bf16_f32)
    (broadcastInDim S800000x1 ![0] bcast_S800000_S800000x1_0
      (shapeCast S800000 (extractStridedSlice S1x800000 ![0, 0] x2 slices_S2x800000_S1x800000_0_0) shapeCasts_S1x800000_S800000))

variable (m : (ℓ : Loc nD τ sig) → Buf (Elt Ideal) ℓ)

theorem entry_v5 (c : Dev nD) :
    (V m c main_v5 : S800000x64.Idx → EReal) = gathered (m ((c : Thread nD τ).loc main_arg0)) (m ((c : Thread nD τ).loc main_arg2)) := by
  dsimp only [Gen.V, Gen.V0]
  simp only [hostOps0, hostOps0_1, hostOps0_2, List.flatten_cons, List.flatten_nil, List.append_nil, List.cons_append, List.nil_append]
  after_results; rfl

theorem entry_v6 (c : Dev nD) :
    (V m c main_v6 : S64x128.Idx → EReal) = extractStridedSlice S64x128 ![0, 0] (m ((c : Thread nD τ).loc main_arg3)) slices_S128x128_S64x128_0_0 := by
  dsimp only [Gen.V, Gen.V0]
  simp only [hostOps0, hostOps0_1, hostOps0_2, List.flatten_cons, List.flatten_nil, List.append_nil, List.cons_append, List.nil_append]
  after_results

theorem entry_v7 (c : Dev nD) :
    (V m c main_v7 : S64x128.Idx → EReal) = extractStridedSlice S64x128 ![64, 0] (m ((c : Thread nD τ).loc main_arg3)) slices_S128x128_S64x128_64_0 := by
  dsimp only [Gen.V, Gen.V0]
  simp only [hostOps0, hostOps0_1, hostOps0_2, List.flatten_cons, List.flatten_nil, List.append_nil, List.cons_append, List.nil_append]
  after_results

theorem entry_v8 (c : Dev nD) :
    (V m c main_v8 : S1x128.Idx → EReal) = shapeCast S1x128 (m ((c : Thread nD τ).loc main_arg4)) shapeCasts_S128_S1x128 := by
  dsimp only [Gen.V, Gen.V0]
  simp only [hostOps0, hostOps0_1, hostOps0_2, List.flatten_cons, List.flatten_nil, List.append_nil, List.cons_append, List.nil_append]
  after_results; rfl

theorem entry_v9 (c : Dev nD) :
    (V m c main_v9 : S1x128.Idx → EReal) = shapeCast S1x128 (m ((c : Thread nD τ).loc main_arg5)) shapeCasts_S128_S1x128 := by
  dsimp only [Gen.V, Gen.V0]
  simp only [hostOps0, hostOps0_1, hostOps0_2, List.flatten_cons, List.flatten_nil, List.append_nil, List.cons_append, List.nil_append]
  after_results; rfl

theorem entry_v10 (c : Dev nD) :
    (V m c main_v10 : S1x128.Idx → EReal) = shapeCast S1x128 (m ((c : Thread nD τ).loc main_arg6)) shapeCasts_S128_S1x128 := by
  dsimp only [Gen.V, Gen.V0]
  simp only [hostOps0, hostOps0_1, hostOps0_2, List.flatten_cons, List.flatten_nil, List.append_nil, List.cons_append, List.nil_append]
  after_results; rfl

theorem entry_v11 (c : Dev nD) :
    (V m c main_v11 : S1x128.Idx → EReal) = shapeCast S1x128 (m ((c : Thread nD τ).loc main_arg8)) shapeCasts_S128_S1x128 := by
  dsimp only [Gen.V, Gen.V0]
  simp only [hostOps0, hostOps0_1, hostOps0_2, List.flatten_cons, List.flatten_nil, List.append_nil, List.cons_append, List.nil_append]
  after_results; rfl

/-! ## The cut weights and the reshaped rows at an index -/

/-- The upper cut of the first weight at `(k, j)` is the weight at `(k, j)`. -/
theorem upper_apply (W : FVec Ideal S128x128 .f32) (k : Fin 64) (j : Fin 128) :
    extractStridedSlice S64x128 ![0, 0] W slices_S128x128_S64x128_0_0 (ix2 k j) = W (ix2 (Fin.castAdd 64 k : Fin 128) j) :=
  slice2_axis0_apply 0 W slices_S128x128_S64x128_0_0 k j (Fin.castAdd 64 k : Fin 128) (by show k.val = 0 + k.val; omega)

/-- The lower cut of the first weight at `(k, j)` is the weight at `(64 + k, j)`. -/
theorem lower_apply (W : FVec Ideal S128x128 .f32) (k : Fin 64) (j : Fin 128) :
    extractStridedSlice S64x128 ![64, 0] W slices_S128x128_S64x128_64_0 (ix2 k j) = W (ix2 (Fin.natAdd 64 k : Fin 128) j) :=
  slice2_axis0_apply 64 W slices_S128x128_S64x128_64_0 k j (Fin.natAdd 64 k : Fin 128) (by show 64 + k.val = 64 + k.val; rfl)

/-- A parameter vector kept as a 1 x 128 row at `(0, j)` is the vector at `j`. -/
theorem row_apply (b : FVec Ideal S128 .f32) (j : Fin 128) :
    shapeCast S1x128 b shapeCasts_S128_S1x128 (ix2 (0 : Fin 1) j) = b (ix1 j) :=
  shapeCast_a_1a_apply b shapeCasts_S128_S1x128 0 j

end Cert.KernelEntry

end
-- ==== Proof.EdgeArr.lean ====
/-
  The per-edge output as ONE array-level function of the arrays it is computed from.

  `edgeAt G A W1 b1 g bt W2 b2 e j` is entry `j` of the layer's output row for edge `e`: the row mathematics of
  `Cert.EdgeRow` applied to row `e` of the gathered source-node table `G` and of the edge features `A`, with the first
  weight `W1` read as its upper 64 rows (against the source row) and its lower 64 rows (against the edge row).
  `edges` is the same as an `[800000, 128]` array.
-/
import proofs.«429996_j37177236914589_3_alg».proof.Proof.EdgeRow
import Idealize.ShloMosaic.Lib.ValueIdx

noncomputable section

namespace Cert.EdgeArr

open Idealize.ShloMosaic Idealize.ShloMosaic.ValueIdx

/-- Entry `j` of edge `e`'s output row. -/
def edgeAt (G A : (⟨2, ![800000, 64]⟩ : Shape).Idx → EReal) (W1 : (⟨2, ![128, 128]⟩ : Shape).Idx → EReal)
    (b1 g bt : (⟨1, ![128]⟩ : Shape).Idx → EReal) (W2 : (⟨2, ![128, 128]⟩ : Shape).Idx → EReal) (b2 : (⟨1, ![128]⟩ : Shape).Idx → EReal)
    (e : Fin 800000) (j : Fin 128) : EReal :=
  Cert.EdgeRow.out
    (Cert.EdgeRow.hidden (fun k => G (ix2 e k)) (fun k => A (ix2 e k))
      (fun k j' => W1 (ix2 (Fin.castAdd 64 k : Fin 128) j')) (fun k j' => W1 (ix2 (Fin.natAdd 64 k : Fin 128) j')) (fun j' => b1 (ix1 j')))
    (fun j' => g (ix1 j')) (fun j' => bt (ix1 j')) (fun k j' => W2 (ix2 k j')) (fun j' => b2 (ix1 j')) j

/-- All edges' output rows as one `[800000, 128]` array. -/
def edges (G A : (⟨2, ![800000, 64]⟩ : Shape).Idx → EReal) (W1 : (⟨2, ![128, 128]⟩ : Shape).Idx → EReal)
    (b1 g bt : (⟨1, ![128]⟩ : Shape).Idx → EReal) (W2 : (⟨2, ![128, 128]⟩ : Shape).Idx → EReal) (b2 : (⟨1, ![128]⟩ : Shape).Idx → EReal) :
    (⟨2, ![800000, 128]⟩ : Shape).Idx → EReal :=
  fun i => edgeAt G A W1 b1 g bt W2 b2 ⟨(i 0).val, idx2_lt0 i⟩ ⟨(i 1).val, idx2_lt1 i⟩

theorem edges_ix2 (G A : (⟨2, ![800000, 64]⟩ : Shape).Idx → EReal) (W1 : (⟨2, ![128, 128]⟩ : Shape).Idx → EReal)
    (b1 g bt : (⟨1, ![128]⟩ : Shape).Idx → EReal) (W2 : (⟨2, ![128, 128]⟩ : Shape).Idx → EReal) (b2 : (⟨1, ![128]⟩ : Shape).Idx → EReal)
    (e : Fin 800000) (j : Fin 128) : edges G A W1 b1 g bt W2 b2 (ix2 e j) = edgeAt G A W1 b1 g bt W2 b2 e j := rfl

end Cert.EdgeArr

end
-- ==== Proof.KernelFinal.lean ====
/-
  From blocks to the array: what the kernel's region leaves in its output array.

  The grid has 80 points; point t works on edges 10000 t … 10000 t + 9999. Its two streamed input blocks are rows
  10000 t + p of the gathered table and of the edge features, its seven resident blocks are whole arrays, and its
  output block is rows 10000 t + p of the output array. So what point t writes back is block t of ONE array,
  `perEdge`: the per-edge row mathematics of the argument arrays. The 80 blocks tile the 800000 rows, so after the
  region the output array is `perEdge`.
-/
import proofs.«429996_j37177236914589_3_alg».proof.Proof.Gen.KernelIdeal.Frame
import proofs.«429996_j37177236914589_3_alg».proof.Proof.KernelRow
import proofs.«429996_j37177236914589_3_alg».proof.Proof.KernelEntry
import proofs.«429996_j37177236914589_3_alg».proof.Proof.EdgeArr
import Idealize.ShloMosaic.Lib.Pipeline.Value

set_option maxRecDepth 16384

noncomputable section

namespace Cert.KernelFinal

open Cert.KernelIdeal Cert.KernelIdeal.Gen Idealize.ShloMosaic Idealize.ShloMosaic.TcCoe Idealize.SL.Sem
  Idealize.ShloMosaic.ValueIdx Cert.KernelEntry
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The per-edge output array as a function of the program's arguments on core `c`. -/
def perEdge (c : Dev nD) : S800000x128.Idx → EReal :=
  Cert.EdgeArr.edges (gathered (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The printed index maps, decided over the grid: the streamed windows and the output window are at block
    (t, 0), the resident windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem point_lt (t : Fin cfg0.N) : t.val < 80 := lt_of_lt_of_eq t.isLt N_0

/-- The edge that row `p` of point `t`'s blocks is. -/
def edgeOf (t : Fin cfg0.N) (p : Fin 10000) : Fin 800000 :=
  ⟨t.val * 10000 + p.val, by have := point_lt t; have := p.isLt; omega⟩

/-! ## Each input block read at an index -/

section Reads

variable (c : Dev nD) (t : Fin cfg0.N)

theorem rd0 (p : Fin 10000) (k : Fin 64) :
    iblk m c 0 t (ix2 p k) = gathered (m ((c : Thread nD τ).loc main_arg0)) (m ((c : Thread nD τ).loc main_arg2)) (ix2 (edgeOf t p) k) := by
  refine Eq.trans ?_ (congrFun (entry_v5 m c) (ix2 (edgeOf t p) k))
  show (V m c main_v5 : S800000x64.Idx → EReal) (((cfg0.win 0).blk t).view.emb (ix2 p k)) = (V m c main_v5 : S800000x64.Idx → EReal) (ix2 (edgeOf t p) k)
  obtain ⟨e0, e1, -⟩ := idx_facts t
  refine congrArg (V m c main_v5 : S800000x64.Idx → EReal) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

theorem rd1 (p : Fin 10000) (k : Fin 64) :
    iblk m c 1 t (ix2 p k) = (m ((c : Thread nD τ).loc main_arg1)) (ix2 (edgeOf t p) k) := by
  refine Eq.trans ?_ (congrFun (V_main_arg1 m c) (ix2 (edgeOf t p) k))
  show (V m c main_arg1 : S800000x64.Idx → EReal) (((cfg0.win 1).blk t).view.emb (ix2 p k)) = (V m c main_arg1 : S800000x64.Idx → EReal) (ix2 (edgeOf t p) k)
  obtain ⟨-, -, e0, e1, -⟩ := idx_facts t
  refine congrArg (V m c main_arg1 : S800000x64.Idx → EReal) (funext fun a => Fin.ext ?_)
  match a with
  | ⟨0, _⟩ => show win0_1.index t (0 : Fin 2) * 10000 + 1 * p.val = t.val * 10000 + p.val; rw [e0]; omega
  | ⟨1, _⟩ => show win0_1.index t (1 : Fin 2) * 64 + 1 * k.val = k.val; rw [e1]; omega

theorem rd2 (k : Fin 64) (j : Fin 128) :
    iblk m c 2 t (ix2 k j) = (m ((c : Thread nD τ).loc main_arg3)) (ix2 (Fin.castAdd 64 k : Fin 128) j) := by
  refine Eq.trans ?_ ((congrFun (entry_v6 m c) (ix2 k j)).trans (upper_apply _ k j))
  show (V m c main_v6 : S64x128.Idx → EReal) (((cfg0.win 2).blk t).view.emb (ix2 k j)) = (V m c main_v6 : S64x128.Idx → EReal) (ix2 k j)
  obtain ⟨-, -, -, -, e0, e1, -⟩ := idx_facts t
  refine congrArg (V m c main_v6 : S64x128.Idx → EReal) (funext fun ax => Fin.ext ?_)
  match ax with
  | ⟨0, _⟩ => show win0_2.index t (0 : Fin 2) * 64 + 1 * k.val = k.val; rw [e0]; omega
  | ⟨1, _⟩ => show win0_2.index t (1 : Fin 2) * 128 + 1 * j.val = j.val; rw [e1]; omega

theorem rd3 (k : Fin 64) (j : Fin 128) :
    iblk m c 3 t (ix2 k j) = (m ((c : Thread nD τ).loc main_arg3)) (ix2 (Fin.natAdd 64 k : Fin 128) j) := by
  refine Eq.trans ?_ ((congrFun (entry_v7 m c) (ix2 k j)).trans (lower_apply _ k j))
  show (V m c main_v7 : S64x128.Idx → EReal) (((cfg0.win 3).blk t).view.emb (ix2 k j)) = (V m c main_v7 : S64x128.Idx → EReal) (ix2 k j)
  obtain ⟨-, -, -, -, -, -, e0, e1, -⟩ := idx_facts t
  refine congrArg (V m c main_v7 : S64x128.Idx → EReal) (funext fun ax => Fin.ext ?_)
  match ax with
  | ⟨0, _⟩ => show win0_3.index t (0 : Fin 2) * 64 + 1 * k.val = k.val; rw [e0]; omega
  | ⟨1, _⟩ => show win0_3.index t (1 : Fin 2) * 128 + 1 * j.val = j.val; rw [e1]; omega

theorem rd4 (u : Fin 1) (j : Fin 128) :
    iblk m c 4 t (ix2 u j) = (m ((c : Thread nD τ).loc main_arg4)) (ix1 j) := by
  refine Eq.trans ?_ ((congrFun (entry_v8 m c) (ix2 u j)).trans (shapeCast_a_1a_apply _ shapeCasts_S128_S1x128 u j))
  show (V m c main_v8 : S1x128.Idx → EReal) (((cfg0.win 4).blk t).view.emb (ix2 u j)) = (V m c main_v8 : S1x128.Idx → EReal) (ix2 u j)
  obtain ⟨-, -, -, -, -, -, -, -, e0, e1, -⟩ := idx_facts t
  refine congrArg (V m c main_v8 : S1x128.Idx → EReal) (funext fun ax => Fin.ext ?_)
  match ax with
  | ⟨0, _⟩ => show win0_4.index t (0 : Fin 2) * 1 + 1 * u.val = u.val; rw [e0]; omega
  | ⟨1, _⟩ => show win0_4.index t (1 : Fin 2) * 128 + 1 * j.val = j.val; rw [e1]; omega

theorem rd5 (u : Fin 1) (j : Fin 128) :
    iblk m c 5 t (ix2 u j) = (m ((c : Thread nD τ).loc main_arg5)) (ix1 j) := by
  refine Eq.trans ?_ ((congrFun (entry_v9 m c) (ix2 u j)).trans (shapeCast_a_1a_apply _ shapeCasts_S128_S1x128 u j))
  show (V m c main_v9 : S1x128.Idx → EReal) (((cfg0.win 5).blk t).view.emb (ix2 u j)) = (V m c main_v9 : S1x128.Idx → EReal) (ix2 u j)
  obtain ⟨-, -, -, -, -, -, -, -, -, -, e0, e1, -⟩ := idx_facts t
  refine congrArg (V m c main_v9 : S1x128.Idx → EReal) (funext fun ax => Fin.ext ?_)
  match ax with
  | ⟨0, _⟩ => show win0_5.index t (0 : Fin 2) * 1 + 1 * u.val = u.val; rw [e0]; omega
  | ⟨1, _⟩ => show win0_5.index t (1 : Fin 2) * 128 + 1 * j.val = j.val; rw [e1]; omega

theorem rd6 (u : Fin 1) (j : Fin 128) :
    iblk m c 6 t (ix2 u j) = (m ((c : Thread nD τ).loc main_arg6)) (ix1 j) := by
  refine Eq.trans ?_ ((congrFun (entry_v10 m c) (ix2 u j)).trans (shapeCast_a_1a_apply _ shapeCasts_S128_S1x128 u j))
  show (V m c main_v10 : S1x128.Idx → EReal) (((cfg0.win 6).blk t).view.emb (ix2 u j)) = (V m c main_v10 : S1x128.Idx → EReal) (ix2 u j)
  obtain ⟨-, -, -, -, -, -, -, -, -, -, -, -, e0, e1, -⟩ := idx_facts t
  refine congrArg (V m c main_v10 : S1x128.Idx → EReal) (funext fun ax => Fin.ext ?_)
  match ax with
  | ⟨0, _⟩ => show win0_6.index t (0 : Fin 2) * 1 + 1 * u.val = u.val; rw [e0]; omega
  | ⟨1, _⟩ => show win0_6.index t (1 : Fin 2) * 128 + 1 * j.val = j.val; rw [e1]; omega

theorem rd7 (k : Fin 128) (j : Fin 128) :
    iblk m c 7 t (ix2 k j) = (m ((c : Thread nD τ).loc main_arg7)) (ix2 k j) := by
  refine Eq.trans ?_ (congrFun (V_main_arg7 m c) (ix2 k j))
  show (V m c main_arg7 : S128x128.Idx → EReal) (((cfg0.win 7).blk t).view.emb (ix2 k j)) = (V m c main_arg7 : S128x128.Idx → EReal) (ix2 k j)
  obtain ⟨-, -, -, -, -, -, -, -, -, -, -, -, -, -, e0, e1, -⟩ := idx_facts t
  refine congrArg (V m c main_arg7 : S128x128.Idx → EReal) (funext fun ax => Fin.ext ?_)
  match ax with
  | ⟨0, _⟩ => show win0_7.index t (0 : Fin 2) * 128 + 1 * k.val = k.val; rw [e0]; omega
  | ⟨1, _⟩ => show win0_7.index t (1 : Fin 2) * 128 + 1 * j.val = j.val; rw [e1]; omega

theorem rd8 (u : Fin 1) (j : Fin 128) :
    iblk m c 8 t (ix2 u j) = (m ((c : Thread nD τ).loc main_arg8)) (ix1 j) := by
  refine Eq.trans ?_ ((congrFun (entry_v11 m c) (ix2 u j)).trans (shapeCast_a_1a_apply _ shapeCasts_S128_S1x128 u j))
  show (V m c main_v11 : S1x128.Idx → EReal) (((cfg0.win 8).blk t).view.emb (ix2 u j)) = (V m c main_v11 : S1x128.Idx → EReal) (ix2 u j)
  obtain ⟨-, -, -, -, -, -, -, -, -, -, -, -, -, -, -, -, e0, e1, -⟩ := idx_facts t
  refine congrArg (V m c main_v11 : S1x128.Idx → EReal) (funext fun ax => Fin.ext ?_)
  match ax with
  | ⟨0, _⟩ => show win0_8.index t (0 : Fin 2) * 1 + 1 * u.val = u.val; rw [e0]; omega
  | ⟨1, _⟩ => show win0_8.index t (1 : Fin 2) * 128 + 1 * j.val = j.val; rw [e1]; omega

/-- Row `p`, column `j` of point `t`'s output block is entry `(10000 t + p, j)` of the output array. -/
theorem emb9 (p : Fin 10000) (j : Fin 128) : ((cfg0.win 9).blk t).view.emb (ix2 p j) = (ix2 (edgeOf t p) j : S800000x128.Idx) := by
  obtain ⟨-, -, -, -, -, -, -, -, -, -, -, -, -, -, -, -, -, -, e0, e1⟩ := idx_facts t
  refine funext fun a => Fin.ext ?_
  match a with
  | ⟨0, _⟩ => show win0_9.index t (0 : Fin 2) * 10000 + 1 * p.val = t.val * 10000 + p.val; rw [e0]; omega
  | ⟨1, _⟩ => show win0_9.index t (1 : Fin 2) * 128 + 1 * j.val = j.val; rw [e1]; omega

end Reads

/-! ## What a point writes back, the cover, the array -/

/-- WHAT POINT `t` WRITES BACK is block `t` of `perEdge`. -/
theorem flushed9_eq (c : Dev nD) (t : Fin cfg0.N) :
    (dats m 0 c).flushed 9 t = ((cfg0.win 9).blk t).view.read (Elt Ideal) (perEdge m c) := by
  show (cfg0.win 9).cut (grid0.coords t) ((dats m 0 c).after 9 t) = _
  rw [after0_9]
  unfold out0_9
  rw [View.canon_unit_zero hz]
  simp only [View.ld_unit_zero (S := S10000x64) hz, View.ld_unit_zero (S := S64x128) hz, View.ld_unit_zero (S := S1x128) hz,
    View.ld_unit_zero (S := S128x128) hz]
  funext y
  obtain ⟨p, j, rfl⟩ : ∃ (p : Fin 10000) (j : Fin 128), y = ix2 p j := ⟨y 0, y 1, eq_ix2 y⟩
  show k0_pay1 (F := Ideal) (k0_pay2 (F := Ideal) (iblk m c 0 t) (iblk m c 1 t) (iblk m c 2 t) (iblk m c 3 t) (iblk m c 4 t) (iblk m c 5 t))
      (iblk m c 6 t) (iblk m c 7 t) (iblk m c 8 t) (ix2 p j) = perEdge m c (((cfg0.win 9).blk t).view.emb (ix2 p j))
  refine (Cert.KernelRow.body_apply (iblk m c 0 t) (iblk m c 1 t) (iblk m c 2 t) (iblk m c 3 t) (iblk m c 4 t) (iblk m c 5 t)
    (iblk m c 6 t) (iblk m c 7 t) (iblk m c 8 t) p j).trans ?_
  rw [emb9 t p j]
  unfold perEdge
  rw [Cert.EdgeArr.edges_ix2]
  unfold Cert.EdgeArr.edgeAt
  simp only [rd0 m c t, rd1 m c t, rd2 m c t, rd3 m c t, rd4 m c t, rd5 m c t, rd6 m c t, rd7 m c t, rd8 m c t]

/-- An index of the output array is in point `t`'s block iff each coordinate is in the block's range on its axis. -/
theorem mem_blk9 (t : Fin cfg0.N) (i : S800000x128.Idx) :
    i ∈ ((cfg0.win 9).blk t).view.set ↔ ∀ a : Fin 2, win0_9.index t a * S10000x128.size a ≤ (i a).val ∧ (i a).val < win0_9.index t a * S10000x128.size a + S10000x128.size a := by
  show i ∈ ((View.whole main_v12).slice (win0_9.rect t)).set ↔ _
  rw [View.set_slice_whole, Rect.mem_set_unit]
  exact Iff.rfl

/-- Every entry of the output array is in some point's block: row `r` in point `r / 10000`'s. -/
theorem cover9 (i : S800000x128.Idx) : ∃ t : Fin cfg0.N, (cfg0.win 9).flush t = true ∧ i ∈ ((cfg0.win 9).blk t).view.set := by
  have hi0 : (i 0).val < 800000 := (i 0).isLt
  have hi1 : (i 1).val < 128 := (i 1).isLt
  have hN : grid0.N = 80 := N_0
  let t : Fin cfg0.N := ⟨(i 0).val / 10000, by show (i 0).val / 10000 < grid0.N; omega⟩
  have ht : t.val = (i 0).val / 10000 := rfl
  obtain ⟨-, -, -, -, -, -, -, -, -, -, -, -, -, -, -, -, -, -, e0, e1⟩ := idx_facts t
  refine ⟨t, flush0_9 t, ?_⟩
  rw [mem_blk9]
  intro a
  match a with
  | ⟨0, _⟩ =>
    show win0_9.index t (0 : Fin 2) * 10000 ≤ (i 0).val ∧ (i 0).val < win0_9.index t (0 : Fin 2) * 10000 + 10000
    rw [e0, ht]; omega
  | ⟨1, _⟩ =>
    show win0_9.index t (1 : Fin 2) * 128 ≤ (i 1).val ∧ (i 1).val < win0_9.index t (1 : Fin 2) * 128 + 128
    rw [e1]; omega

/-- THE ARRAY after the region: the per-edge output of the argument arrays. -/
theorem final9 (c : Dev nD) : (dats m 0 c).arrAt 9 cfg0.N = perEdge m c :=
  (dats m 0 c).arrAt_eq_of_cover 9 (perEdge m c) (fun t _ => flushed9_eq m c t) cover9

end Cert.KernelFinal

end
-- ==== Proof.KernelTail.lean ====
/-
  After the region: the scatter-mean over destination nodes, and the kernel program's run read as a value.

  The lines after the region widen the per-edge array (the identity on exact reals), add each edge's row into its
  destination node's row (the destination is the second row of the edge index), count the edges of each node the
  same way, and divide each node's sum by max(count, 1). That is `segMean` of the per-edge array and the
  destination indices. The run of the whole program therefore ends with its result at
  `segMean (perEdge …) (destinations …)`, its arguments unchanged.
-/
import proofs.«429996_j37177236914589_3_alg».proof.Proof.Gen.KernelIdeal.Frame
import proofs.«429996_j37177236914589_3_alg».proof.Proof.KernelFinal
import Idealize.ShloMosaic.Lib.StableHlo.Run

set_option maxRecDepth 16384

noncomputable section

namespace Cert.KernelTail

open Cert.KernelIdeal Cert.KernelIdeal.Gen Idealize.ShloMosaic Idealize.ShloMosaic.TcCoe Idealize.SL.Sem Idealize.ShloMosaic.StableHlo
  Cert.KernelFinal
open Idealize.ShloMosaic.Pipeline (Dat Cfg Window)

/-- The destination node of each edge: the second row of the edge index as a vector. -/
def destinations (x2 : IVec S2x800000 32) : IVec S800000 32 :=
  shapeCast S800000 (extractStridedSlice S1x800000 ![1, 0] x2 slices_S2x800000_S1x800000_1_0) shapeCasts_S1x800000_S800000

/-- The mean over each destination node's edges of the per-edge rows `H` (a node with no edge divides by 1). -/
def segMean (H : FVec Ideal S800000x128 .bf16) (dst : IVec S800000 32) : FVec Ideal S50000x128 .f32 :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (extf .f32 H bitsLt_bf16_f32))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

variable (m : (ℓ : Loc nD τ sig) → Buf (Elt Ideal) ℓ)

/-- The region finds the destination vector as the program computed it before the region. -/
theorem entry_v3 (c : Dev nD) : (V m c main_v3 : S800000.Idx → BitVec 32) = destinations (m ((c : Thread nD τ).loc main_arg2)) := by
  dsimp only [Gen.V, Gen.V0]
  simp only [hostOps0, hostOps0_1, hostOps0_2, List.flatten_cons, List.flatten_nil, List.append_nil, List.cons_append, List.nil_append]
  after_results; rfl

/-- The program's result buffer after the lines that follow the region. -/
theorem tail_eq (c : Dev nD) :
    (Pipeline.afterTail₀ cfgs (dats m) 0 (V0 m) [hostOps1] c main_v25 : S50000x128.Idx → EReal)
      = segMean (perEdge m c) (destinations (m ((c : Thread nD τ).loc main_arg2))) := by
  unfold Pipeline.afterTail₀
  show StableHlo.after hostOps1 _ (Proc.devRef .tc main_v25) = _
  after_results
  have e12 : (Pipeline.withArrays (cfgs 0).spec c (V0 m c) (fun w => (dats m 0 c).arrAt w (cfgs 0).N) (Proc.devRef .tc main_v12) : S800000x128.Idx → EReal)
      = perEdge m c :=
    (Pipeline.withArrays_arr spec0 launch0.win.arr_inj c _ _ 9).trans (final9 m c)
  have e3 : (Pipeline.withArrays (cfgs 0).spec c (V0 m c) (fun w => (dats m 0 c).arrAt w (cfgs 0).N) (Proc.devRef .tc main_v3) : S800000.Idx → BitVec 32)
      = destinations (m ((c : Thread nD τ).loc main_arg2)) :=
    (Pipeline.withArrays_of_ne _ c (V0 m c) _ main_v3 (by exact (by decide : ∀ w, Pipeline.arrRef spec0 w ≠ main_v3))).trans (entry_v3 m c)
  rw [e12, e3]
  rfl

/-- THE KERNEL PROGRAM'S RUN, read: every weakly fair execution terminates with the result at the scatter-mean of the
    per-edge array, and the arguments as launched. -/
theorem run (ρ : Dev nD → PrngReg) :
    θ_run defs (onTc (τ := τ) (main (F := Ideal))) ⟨m, fun _ => 0, ρ⟩ (fun r => ∀ c : Dev nD,
      r.2.mem ((c : Thread nD τ).loc main_v25) = segMean (perEdge m c) (destinations (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun _ h c => ⟨((h c).2 main_v25 (Pipeline.mem_restRefs_of main_v25 (by decide) (by decide))).trans (tail_eq m c),
      (((h c).2 main_arg0 (Pipeline.mem_restRefs_of main_arg0 (by decide) (by decide))).trans (W_main_arg0 m (dats m) c)),
      (((h c).1 1).trans ((((dats m) 0 c).arrAt_in 1 rfl _).trans ((A_eq m c 1).trans (V_main_arg1 m c)))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).1 7).trans ((((dats m) 0 c).arrAt_in 7 rfl _).trans ((A_eq m c 7).trans (V_main_arg7 m c)))),
      (((h c).2 main_arg8 (Pipeline.mem_restRefs_of main_arg8 (by decide) (by decide))).trans (W_main_arg8 m (dats m) c))⟩) (run_main m ρ)

end Cert.KernelTail

end
-- ==== Proof.RefRow.lean ====
import proofs.«429996_j37177236914589_3_alg».proof.Proof.Gen.ReferenceIdeal.Read
import proofs.«429996_j37177236914589_3_alg».proof.Proof.EdgeRow
import Idealize.ShloMosaic.Lib.ValueIdx
import Idealize.ShloMosaic.Lib.Pipeline.Value
import Idealize.ShloMosaic.PureOps.Ideal.Laws

noncomputable section

namespace Cert.RefRow

open Cert.ReferenceIdeal Cert.ReferenceIdeal.Gen Cert.ReferenceIdeal.Read Idealize.ShloMosaic Idealize.ShloMosaic.ValueIdx

variable (x0 : FVec Ideal S50000x64 .f32) (x1 : FVec Ideal S800000x64 .f32) (x2 : IVec S2x800000 32)
  (x3 : FVec Ideal S128x128 .f32) (x4 x5 x6 : FVec Ideal S128 .f32) (x7 : FVec Ideal S128x128 .f32) (x8 : FVec Ideal S128 .f32)

/-- Left half of the joined row: the gathered source-node row. -/
theorem v11_left (e : Fin 800000) (k : Fin 64) :
    val_main_v11 (F := Ideal) x0 x1 x2 (ix2 e (Fin.castAdd 64 k : Fin 128)) = val_main_v10 (F := Ideal) x0 x2 (ix2 e k) := by
  unfold val_main_v11
  refine concatenate_pair_apply_left (t := S800000x128) (s₁ := S800000x64) (s₂ := S800000x64) 1 _ _ _
    (ix2 e (Fin.castAdd 64 k : Fin 128)) rfl (ix2 e k) ?_
  intro b
  match b with
  | ⟨0, _⟩ => rfl
  | ⟨1, _⟩ => rfl

/-- Right half of the joined row: the edge-feature row. -/
theorem v11_right (e : Fin 800000) (k : Fin 64) :
    val_main_v11 (F := Ideal) x0 x1 x2 (ix2 e (Fin.natAdd 64 k : Fin 128)) = x1 (ix2 e k) := by
  unfold val_main_v11
  refine concatenate_pair_apply_right (t := S800000x128) (s₁ := S800000x64) (s₂ := S800000x64) 1 _ _ _
    (ix2 e (Fin.natAdd 64 k : Fin 128)) rfl rfl (ix2 e k) ?_ ?_
  · intro b hb
    match b with
    | ⟨0, _⟩ => rfl
    | ⟨1, _⟩ => exact absurd rfl hb
  · show k.val + 64 = 64 + k.val
    omega

/-! ### The composed index functions of the reference's stages, at an edge e and a column j -/

private theorem lidx12_eq (e : Fin 800000) (j k : Fin 128) : lidx_main_v12 (ix2 e j) k = ix2 e k :=
  funext fun a => Fin.ext (by match a with | ⟨0, _⟩ => rfl | ⟨1, _⟩ => rfl)
private theorem ridx12_eq (e : Fin 800000) (j k : Fin 128) : ridx_main_v12 (ix2 e j) k = ix2 k j :=
  funext fun a => Fin.ext (by match a with | ⟨0, _⟩ => rfl | ⟨1, _⟩ => rfl)
private theorem idx14_eq (e : Fin 800000) (j : Fin 128) : idx_main_v13 (idx_main_v14 (ix2 e j)) = ix1 j :=
  funext fun a => Fin.ext (by match a with | ⟨0, _⟩ => rfl)

/-- The first linear layer's row at edge e: the joined row against the weight, plus the bias. -/
private theorem v15_row (e : Fin 800000) (j : Fin 128) :
    val_main_v15 (F := Ideal) x0 x1 x2 x3 x4 (ix2 e j)
      = Cert.EdgeRow.hiddenJoined (fun k => val_main_v11 (F := Ideal) x0 x1 x2 (ix2 e k)) (fun k j' => x3 (ix2 k j')) (fun j' => x4 (ix1 j')) j := by
  rw [val_main_v15_apply, val_main_v12_apply, val_main_v14_apply, val_main_v13_apply, idx14_eq]
  simp only [lidx12_eq, ridx12_eq]
  rfl

private theorem idx20_eq (e : Fin 800000) (j : Fin 128) : idx_main_v20 (ix2 e j) = ix2 e (0 : Fin 1) :=
  funext fun a => Fin.ext (by match a with | ⟨0, _⟩ => rfl | ⟨1, _⟩ => rfl)
private theorem idx27_eq (e : Fin 800000) (j : Fin 128) : idx_main_v27 (ix2 e j) = ix2 e (0 : Fin 1) :=
  funext fun a => Fin.ext (by match a with | ⟨0, _⟩ => rfl | ⟨1, _⟩ => rfl)
private theorem idx32_eq (e : Fin 800000) (j : Fin 128) : idx_main_v32 (ix2 e j) = ix2 e (0 : Fin 1) :=
  funext fun a => Fin.ext (by match a with | ⟨0, _⟩ => rfl | ⟨1, _⟩ => rfl)
private theorem idx17_eq (e : Fin 800000) : idx_main_v17 (ix2 e (0 : Fin 1)) = ix1 e :=
  funext fun a => Fin.ext (by match a with | ⟨0, _⟩ => rfl)
private theorem idx24_eq (e : Fin 800000) : idx_main_v24 (ix2 e (0 : Fin 1)) = ix1 e :=
  funext fun a => Fin.ext (by match a with | ⟨0, _⟩ => rfl)
private theorem idx16_eq (e : Fin 800000) (k : Fin 128) : idx_main_v16 (ix1 e) k = ix2 e k :=
  funext fun a => Fin.ext (by match a with | ⟨0, _⟩ => rfl | ⟨1, _⟩ => rfl)
private theorem idx23_eq (e : Fin 800000) (k : Fin 128) : idx_main_v23 (ix1 e) k = ix2 e k :=
  funext fun a => Fin.ext (by match a with | ⟨0, _⟩ => rfl | ⟨1, _⟩ => rfl)
private theorem idx35_eq (e : Fin 800000) (j : Fin 128) : idx_main_v34 (idx_main_v35 (ix2 e j)) = ix1 j :=
  funext fun a => Fin.ext (by match a with | ⟨0, _⟩ => rfl)
private theorem idx38_eq (e : Fin 800000) (j : Fin 128) : idx_main_v37 (idx_main_v38 (ix2 e j)) = ix1 j :=
  funext fun a => Fin.ext (by match a with | ⟨0, _⟩ => rfl)
private theorem idx43_eq (e : Fin 800000) (j : Fin 128) : idx_main_v42 (idx_main_v43 (ix2 e j)) = ix1 j :=
  funext fun a => Fin.ext (by match a with | ⟨0, _⟩ => rfl)
private theorem lidx41_eq (e : Fin 800000) (j k : Fin 128) : lidx_main_v41 (ix2 e j) k = ix2 e k :=
  funext fun a => Fin.ext (by match a with | ⟨0, _⟩ => rfl | ⟨1, _⟩ => rfl)
private theorem ridx41_eq (e : Fin 800000) (j k : Fin 128) : ridx_main_v41 (ix2 e j) k = ix2 k j :=
  funext fun a => Fin.ext (by match a with | ⟨0, _⟩ => rfl | ⟨1, _⟩ => rfl)

/-! ### Layer norm, stage by stage, over any row h that the first layer's stage reads as at edge e -/

section Row
variable (e : Fin 800000) (h : Fin 128 → EReal)
  (hh : ∀ j : Fin 128, val_main_v15 (F := Ideal) x0 x1 x2 x3 x4 (ix2 e j) = h j)
include hh

/-- The row's mean: the sum from the f32 zero, over the width. -/
private theorem v19_mean :
    val_main_v19 (F := Ideal) x0 x1 x2 x3 x4 (ix2 e (0 : Fin 1)) = Cert.EdgeRow.mean h := by
  rw [val_main_v19_apply, val_main_v17_apply, idx17_eq, val_main_v16_apply, val_main_v18_apply, val_main_cst_1_apply,
    val_main_cst_apply]
  simp only [idx16_eq, hh]
  unfold Cert.EdgeRow.mean Cert.EdgeRow.width
  simp only [Ideal.hostDivf_def, Ideal.ofBits_def, Ideal.ofBits_zero_f32, zero_add]

/-- The centred row, as the variance's operand. -/
private theorem v21_centred (j : Fin 128) :
    val_main_v21 (F := Ideal) x0 x1 x2 x3 x4 (ix2 e j) = Cert.EdgeRow.centred h j := by
  rw [val_main_v21_apply, val_main_v20_apply, idx20_eq, v19_mean x0 x1 x2 x3 x4 e h hh, hh]
  rfl

/-- The centred row again, as the normalised row's operand. -/
private theorem v28_centred (j : Fin 128) :
    val_main_v28 (F := Ideal) x0 x1 x2 x3 x4 (ix2 e j) = Cert.EdgeRow.centred h j := by
  rw [val_main_v28_apply, val_main_v27_apply, idx27_eq, v19_mean x0 x1 x2 x3 x4 e h hh, hh]
  rfl

/-- The row's variance: the mean of the squares of the centred row. -/
private theorem v26_variance :
    val_main_v26 (F := Ideal) x0 x1 x2 x3 x4 (ix2 e (0 : Fin 1)) = Cert.EdgeRow.variance h := by
  rw [val_main_v26_apply, val_main_v24_apply, idx24_eq, val_main_v23_apply, val_main_v25_apply, val_main_cst_3_apply,
    val_main_cst_2_apply]
  simp only [idx23_eq, val_main_v22_apply, v21_centred x0 x1 x2 x3 x4 e h hh]
  unfold Cert.EdgeRow.variance Cert.EdgeRow.width
  simp only [Ideal.hostDivf_def, Ideal.mulf_def, Ideal.ofBits_def, Ideal.ofBits_zero_f32, zero_add]

/-- The normalised row with gain and bias. -/
private theorem v39_normed (j : Fin 128) :
    val_main_v39 (F := Ideal) x0 x1 x2 x3 x4 x5 x6 (ix2 e j)
      = Cert.EdgeRow.normed h (fun j' => x5 (ix1 j')) (fun j' => x6 (ix1 j')) j := by
  rw [val_main_v39_apply, val_main_v36_apply, val_main_v33_apply, val_main_v32_apply, idx32_eq, val_main_v31_apply,
    val_main_v30_apply, val_main_v29_apply, val_main_cst_4_apply, v26_variance x0 x1 x2 x3 x4 e h hh,
    v28_centred x0 x1 x2 x3 x4 e h hh, val_main_v35_apply, val_main_v34_apply, idx35_eq, val_main_v38_apply,
    val_main_v37_apply, idx38_eq]
  rfl

/-- ReLU of the normalised row. -/
private theorem v40_relu (j : Fin 128) :
    val_main_v40 (F := Ideal) x0 x1 x2 x3 x4 x5 x6 (ix2 e j)
      = max (Cert.EdgeRow.normed h (fun j' => x5 (ix1 j')) (fun j' => x6 (ix1 j')) j) Cert.EdgeRow.zero := by
  rw [val_main_v40_apply, val_main_call0_v0_apply, val_main_call0_cst_apply, v39_normed x0 x1 x2 x3 x4 x5 x6 e h hh]
  rfl

/-- The second linear layer over the ReLU of the normalised row. -/
private theorem v44_row (j : Fin 128) :
    val_main_v44 (F := Ideal) x0 x1 x2 x3 x4 x5 x6 x7 x8 (ix2 e j)
      = Cert.EdgeRow.out h (fun j' => x5 (ix1 j')) (fun j' => x6 (ix1 j')) (fun k j' => x7 (ix2 k j')) (fun j' => x8 (ix1 j')) j := by
  rw [val_main_v44_apply, val_main_v41_apply, val_main_v43_apply, val_main_v42_apply, idx43_eq]
  simp only [lidx41_eq, ridx41_eq, v40_relu x0 x1 x2 x3 x4 x5 x6 e h hh]
  rfl

end Row

/-- The second linear layer's output at edge e, column j, is the row mathematics of EdgeRow applied to the joined row. -/
theorem v44_apply (e : Fin 800000) (j : Fin 128) :
    val_main_v44 (F := Ideal) x0 x1 x2 x3 x4 x5 x6 x7 x8 (ix2 e j)
      = Cert.EdgeRow.out
          (Cert.EdgeRow.hiddenJoined (fun k => val_main_v11 (F := Ideal) x0 x1 x2 (ix2 e k)) (fun k j' => x3 (ix2 k j')) (fun j' => x4 (ix1 j')))
          (fun j' => x5 (ix1 j')) (fun j' => x6 (ix1 j')) (fun k j' => x7 (ix2 k j')) (fun j' => x8 (ix1 j')) j :=
  v44_row x0 x1 x2 x3 x4 x5 x6 x7 x8 e _ (fun j' => v15_row x0 x1 x2 x3 x4 e j') j

end Cert.RefRow

end
-- ==== Proof.Bridge.lean ====
/-
  The reference's side of the per-edge array, and where the precondition enters.

  The reference's second linear layer's output is the per-edge array `Cert.EdgeArr.edges` of ITS gathered table: its
  one contraction over the joined row of length 128 is the two contractions over the halves. Its gather reads the
  node table at the row index with a negative index wrapped round (index + 50000); the kernel's gather reads it at
  the row index as it is. The precondition says every row index is at least 0, so nothing is wrapped and the two
  gathered tables are one.
-/
import proofs.«429996_j37177236914589_3_alg».proof.Proof.RefRow
import proofs.«429996_j37177236914589_3_alg».proof.Proof.EdgeArr
import proofs.«429996_j37177236914589_3_alg».proof.Proof.KernelEntry
import proofs.«429996_j37177236914589_3_alg».proof.Proof.Gen.Pre_finite_inputs
import Idealize.ShloMosaic.Lib.ReduceAll
import Idealize.ShloMosaic.Lib.StableHlo.Predicate

noncomputable section

namespace Cert.Bridge

open Cert.ReferenceIdeal Cert.ReferenceIdeal.Gen Cert.ReferenceIdeal.Read Idealize.ShloMosaic Idealize.ShloMosaic.ValueIdx

variable (x0 : FVec Ideal S50000x64 .f32) (x1 : FVec Ideal S800000x64 .f32) (x2 : IVec S2x800000 32)
  (x3 : FVec Ideal S128x128 .f32) (x4 x5 x6 : FVec Ideal S128 .f32) (x7 : FVec Ideal S128x128 .f32) (x8 : FVec Ideal S128 .f32)

/-- The reference's second linear layer's output array is the per-edge array of the reference's gathered table. -/
theorem v44_eq :
    val_main_v44 (F := Ideal) x0 x1 x2 x3 x4 x5 x6 x7 x8
      = Cert.EdgeArr.edges (val_main_v10 (F := Ideal) x0 x2) x1 x3 x4 x5 x6 x7 x8 := by
  funext i
  obtain ⟨e, j, rfl⟩ : ∃ (e : Fin 800000) (j : Fin 128), i = ix2 e j := ⟨i 0, i 1, eq_ix2 i⟩
  rw [Cert.RefRow.v44_apply, Cert.EdgeArr.edges_ix2]
  unfold Cert.EdgeArr.edgeAt
  have hh : Cert.EdgeRow.hiddenJoined (fun k => val_main_v11 (F := Ideal) x0 x1 x2 (ix2 e k)) (fun k j' => x3 (ix2 k j')) (fun j' => x4 (ix1 j'))
      = Cert.EdgeRow.hidden (fun k => val_main_v10 (F := Ideal) x0 x2 (ix2 e k)) (fun k => x1 (ix2 e k))
          (fun k j' => x3 (ix2 (Fin.castAdd 64 k : Fin 128) j')) (fun k j' => x3 (ix2 (Fin.natAdd 64 k : Fin 128) j')) (fun j' => x4 (ix1 j')) := by
    funext j'
    rw [Cert.EdgeRow.joined_eq_halves]
    simp only [Cert.RefRow.v11_left, Cert.RefRow.v11_right]
  rw [hh]

/-! ## The precondition: every row index is at least 0 -/

/-- A word that is at least 0 (signed) is not below 0. -/
theorem slt_zero_of_sge_zero (w : BitVec 32) (h : IntOp.cmpi .sge w 0#32 = 1#1) : IntOp.cmpi .slt w 0#32 = 0#1 := by
  unfold IntOp.cmpi at h ⊢
  rw [StableHlo.Predicate.ofBool_eq_one_iff] at h
  have hs : w.slt 0#32 = false := by
    simp only [BitVec.sle, BitVec.slt, decide_eq_true_eq, decide_eq_false_iff_not] at h ⊢
    have z : (0#32 : BitVec 32).toInt = 0 := by decide
    omega
  rw [hs]
  rfl

instance : Subsingleton Cert.Pre_finite_inputs.S_.Idx := ⟨fun a b => funext fun d => d.elim0⟩

/-- The precondition read at one edge: its row index is at least 0. -/
theorem row_sge (h : Cert.Pre_finite_inputs.fn (F := Ideal) x0 x1 x2 x3 x4 x5 x6 x7 x8 = fun _ => 1#1) (i : S800000.Idx) :
    IntOp.cmpi .sge (val_main_v1 (F := Ideal) x2 i) 0#32 = 1#1 := by
  have h0 := congrFun h ix0
  unfold Cert.Pre_finite_inputs.fn Cert.Pre_finite_inputs.fn_part1 Cert.Pre_finite_inputs.fn_part2 at h0
  dsimp only at h0
  have h1 := (IntOp.andi_eq_one.mp h0).2
  have h2 := Host.reduce_andi_all _ _ _ _ _ h1 i
  have hb : ∀ (hbc : Cert.Pre_finite_inputs.S_.BroadcastsInDim Cert.Pre_finite_inputs.S800000
        (![] : Fin 0 → Fin Cert.Pre_finite_inputs.S800000.rank)),
      broadcastInDim Cert.Pre_finite_inputs.S800000 ![] hbc (constantI Cert.Pre_finite_inputs.S_ 32 0#32) i = 0#32 :=
    fun hbc => broadcastInDim_apply _ hbc _ i (fun a => a.elim0) (fun a => a.elim0)
  simp only [cmpi] at h2
  rw [hb] at h2
  exact h2

/-- Under the precondition the reference's wrapped row index is the row index itself: nothing is negative. -/
theorem v8_eq_v1 (h : Cert.Pre_finite_inputs.fn (F := Ideal) x0 x1 x2 x3 x4 x5 x6 x7 x8 = fun _ => 1#1) :
    val_main_v8 (F := Ideal) x2 = val_main_v1 (F := Ideal) x2 := by
  funext i
  rw [val_main_v8_apply, val_main_v5_apply]
  have hz : val_main_v4 (F := Ideal) i = 0#32 := by rw [val_main_v4_apply]; rfl
  rw [hz, slt_zero_of_sge_zero _ (row_sge x0 x1 x2 x3 x4 x5 x6 x7 x8 h i)]
  exact select_zero _ _

/-- Under the precondition the reference's gathered table is the kernel's. -/
theorem gather_eq (h : Cert.Pre_finite_inputs.fn (F := Ideal) x0 x1 x2 x3 x4 x5 x6 x7 x8 = fun _ => 1#1) :
    val_main_v10 (F := Ideal) x0 x2 = Cert.KernelEntry.gathered x0 x2 := by
  unfold val_main_v10 val_main_v9
  rw [v8_eq_v1 x0 x1 x2 x3 x4 x5 x6 x7 x8 h]
  rfl

end Cert.Bridge

end
-- ==== Proof.Agree.lean ====
/-
  The reference's result as the kernel's function of the arguments.

  The reference ends with the same scatter-mean over destination nodes as the kernel program, applied to its own
  second linear layer's output. That output is the per-edge array of its gathered table (`Cert.Bridge.v44_eq`), and
  under the precondition its gathered table is the kernel's (`Cert.Bridge.gather_eq`). So the reference's result is
  `segMean` of `edges` of the kernel's gathered table: the very term the kernel program's run ends at.
-/
import proofs.«429996_j37177236914589_3_alg».proof.Proof.Bridge
import proofs.«429996_j37177236914589_3_alg».proof.Proof.KernelTail

noncomputable section

namespace Cert.Agree

open Cert.ReferenceIdeal Cert.ReferenceIdeal.Gen Cert.ReferenceIdeal.Read Idealize.ShloMosaic

variable (x0 : FVec Ideal S50000x64 .f32) (x1 : FVec Ideal S800000x64 .f32) (x2 : IVec S2x800000 32)
  (x3 : FVec Ideal S128x128 .f32) (x4 x5 x6 : FVec Ideal S128 .f32) (x7 : FVec Ideal S128x128 .f32) (x8 : FVec Ideal S128 .f32)

/-- The reference's last stage is the scatter-mean of its second linear layer's output over the destinations. -/
theorem v56_split :
    val_main_v56 (F := Ideal) x0 x1 x2 x3 x4 x5 x6 x7 x8
      = Cert.KernelTail.segMean (val_main_v44 (F := Ideal) x0 x1 x2 x3 x4 x5 x6 x7 x8) (Cert.KernelTail.destinations x2) := rfl

/-- Under the precondition, the reference's result is the kernel program's function of the arguments. -/
theorem result_eq (h : Cert.Pre_finite_inputs.fn (F := Ideal) x0 x1 x2 x3 x4 x5 x6 x7 x8 = fun _ => 1#1) :
    val_main_v56 (F := Ideal) x0 x1 x2 x3 x4 x5 x6 x7 x8
      = Cert.KernelTail.segMean (Cert.EdgeArr.edges (Cert.KernelEntry.gathered x0 x2) x1 x3 x4 x5 x6 x7 x8) (Cert.KernelTail.destinations x2) := by
  rw [v56_split, Cert.Bridge.v44_eq, Cert.Bridge.gather_eq x0 x1 x2 x3 x4 x5 x6 x7 x8 h]

end Cert.Agree

end
-- ==== Proof.lean ====
/-
  A message-passing layer over 800000 edges and 50000 nodes: for each edge the source node's row and the edge's
  features go through Linear → LayerNorm → ReLU → Linear, and each node receives the mean of its incoming edges' rows.

  The kernel program gathers the source rows on the host, runs the two linear layers and the layer norm in a
  pallas_call over 80 blocks of 10000 edges (the first linear layer as two contractions of length 64, one per half of
  the weight), and finishes with the scatter-mean on the host. The reference joins the gathered rows and the edge
  features into rows of length 128 and runs one contraction of length 128. On the extended reals the two are the same
  function of the arguments:
    * a contraction over 128 = 64 + 64 positions is the sum of the contractions over the halves (a regrouping of a
      finite sum, no finiteness needed): `Cert.EdgeRow.joined_eq_halves`;
    * every other operation is the same on both sides, row by row (`Cert.KernelRow.body_apply`, `Cert.RefRow.v44_apply`),
      and the 80 blocks tile the edges (`Cert.KernelFinal.final9`);
    * the reference reads a NEGATIVE source index wrapped round (index + 50000) where the kernel program clamps it to
      0; the precondition asks every source index to be at least 0, and then both read the same row
      (`Cert.Bridge.gather_eq`). Indices at or above 50000 are clamped alike by both and need no hypothesis.
  The finiteness half of the precondition is not used.
-/
import proofs.«429996_j37177236914589_3_alg».proof.Defs
import proofs.«429996_j37177236914589_3_alg».proof.Proof.Gen.Kernel
import proofs.«429996_j37177236914589_3_alg».proof.Proof.Gen.Kernel.Frame
import proofs.«429996_j37177236914589_3_alg».proof.Proof.Gen.KernelIdeal
import proofs.«429996_j37177236914589_3_alg».proof.Proof.Gen.KernelIdeal.Frame
import proofs.«429996_j37177236914589_3_alg».proof.Proof.Gen.ReferenceIdeal
import proofs.«429996_j37177236914589_3_alg».proof.Proof.Gen.ReferenceIdeal.Run
import proofs.«429996_j37177236914589_3_alg».proof.Proof.Gen.ReferenceIdeal.Read
import proofs.«429996_j37177236914589_3_alg».proof.Proof.Gen.Pre_finite_inputs
import proofs.«429996_j37177236914589_3_alg».proof.Proof.KernelTail
import proofs.«429996_j37177236914589_3_alg».proof.Proof.Agree
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the kernel program on exact reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, with every source index at least 0, both programs end with the
    scatter-mean of the same per-edge array. -/
theorem algebraic : Cert.algebraic_KernelIdeal_ReferenceIdeal := by
  intro m ρ m' ρ' hpre hagree
  refine ⟨fun c => Cert.KernelTail.segMean (Cert.KernelFinal.perEdge m c)
      (Cert.KernelTail.destinations (m ((c.tc : Thread Cert.KernelIdeal.nD Cert.KernelIdeal.τ).loc Cert.KernelIdeal.main_arg2))), Cert.KernelTail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq]
  obtain ⟨h0, h1, h2, h3, h4, h5, h6, h7, h8⟩ := hagree c
  rw [h0, h1, h2, h3, h4, h5, h6, h7, h8]
  exact Cert.Agree.result_eq _ _ _ _ _ _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
